-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S1x512x4096 : Shape := ⟨3, ![1, 512, 4096]⟩
abbrev S1x128x4096 : Shape := ⟨3, ![1, 128, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v1 : BitVec 32 := Scalar.muli arg4 c128_i32
  v1
def k0_off1 (k0_t1 : Fin k0_t1_loop.trips) : Fin 3 → Nat :=
  let c0 : Index := 0#32
  let c0_i32 : BitVec 32 := 0#32
  let c1_i32 : BitVec 32 := 1#32
  let arg4 : BitVec 32 := Scf.iv c0_i32 c1_i32 k0_t1
  let c128_i32 : BitVec 32 := 128#32
  let v1 : BitVec 32 := Scalar.muli arg4 c128_i32
  let v2 : BitVec 32 := v1
  let v3 : Index := Scalar.indexCast v2
  let c0_1 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x128x4096 : 0 < S1x128x4096.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x4096.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S4x4096x4096.size a
  hwx0_1 : ∀ i : grid0.Coords, EltTy.bits .f32 = 32 ∨ (Rect.block (s := S4x4096x4096) S1x512x4096.size (cc0_transform_1 i) (hinb0_1 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)

variable [Facts₀]

class Facts : Prop extends Facts₀ where

variable [Facts]
-- ==== Proof.SiluAlgebra.lean ====
/-
  x · σ(x) two ways, on the extended reals.

  The reference computes  x · (1 / (1 + e^(-x))).
  The kernel computes     x · (n(x) / (1 + z(x)))   with   z(x) = e^(0 - |x|),   n(x) = 1 if 0 ≤ x, else z(x),
  the overflow-free form of the logistic function: for 0 ≤ x one has |x| = x and the two quotients are literally
  the same; for x < 0 one has |x| = -x, z = e^x, and  e^x / (1 + e^x) = 1 / (1 + e^(-x))  because e^x · e^(-x) = 1.
  The last step divides by e^x, so it is an identity of REAL numbers: the statement is made for finite x.
-/
import Idealize.ShloMosaic.PureOps.Ideal
import Idealize.ShloMosaic.PureOps.Ideal.Laws
import Idealize.ShloMosaic.Lib.IdealHost

noncomputable section

namespace Cert.Proof.Silu

open Idealize.ShloMosaic

/-- x · σ(x) as the reference spells it: the quotient of one by one plus e^(-x). -/
def viaLogistic (x : EReal) : EReal := x * Ideal.div 1 (1 + Ideal.exp (-x))

/-- x · σ(x) as the kernel spells it: with z = e^(0 - |x|), the quotient of (1 where 0 ≤ x, z elsewhere) by 1 + z. -/
def viaStable (x : EReal) : EReal :=
  x * Ideal.div (Scalar.select (Ideal.cmp .oge x 0) 1 (Ideal.exp (0 - max x (-x)))) (1 + Ideal.exp (0 - max x (-x)))

/-- One plus an exponential, as an extended real, is the coercion of a nonzero real. -/
theorem one_add_exp (s : ℝ) : (1 : EReal) + Ideal.exp (s : EReal) = ((1 + Real.exp s : ℝ) : EReal) := by
  rw [Ideal.exp_coe, EReal.coe_add, EReal.coe_one]

theorem one_add_exp_ne (s : ℝ) : (1 + Real.exp s : ℝ) ≠ 0 := (add_pos one_pos (Real.exp_pos s)).ne'

/-- On a finite x the two spellings agree. -/
theorem viaStable_coe (r : ℝ) : viaStable (r : EReal) = viaLogistic (r : EReal) := by
  unfold viaStable viaLogistic
  by_cases h : 0 ≤ r
  · -- 0 ≤ x: |x| = x, the numerator is 1, and 0 - x = -x
    have hc : Ideal.cmp .oge (r : EReal) 0 = 1#1 := by
      simp only [Ideal.cmp]; rw [decide_eq_true (by exact_mod_cast h)]; rfl
    have hm : max (r : EReal) (-(r : EReal)) = (r : EReal) := by
      apply max_eq_left; rw [← EReal.coe_neg]; exact_mod_cast (by linarith : -r ≤ r)
    rw [hc, hm, zero_sub]; rfl
  · -- x < 0: |x| = -x, so z = e^x, and e^x / (1 + e^x) = 1 / (1 + e^(-x))
    have h' : r < 0 := not_le.mp h
    have hc : Ideal.cmp .oge (r : EReal) 0 = 0#1 := by
      simp only [Ideal.cmp]; rw [decide_eq_false (by exact_mod_cast h)]; rfl
    have hm : max (r : EReal) (-(r : EReal)) = -(r : EReal) := by
      apply max_eq_right; rw [← EReal.coe_neg]; exact_mod_cast (by linarith : r ≤ -r)
    have hsel : Scalar.select (0#1) (1 : EReal) (Ideal.exp (r : EReal)) = Ideal.exp (r : EReal) := by
      unfold Scalar.select; rw [if_neg (by decide)]
    rw [hc, hm, zero_sub, neg_neg, hsel, ← EReal.coe_neg, one_add_exp, one_add_exp,
      Ideal.div_coe (one_add_exp_ne r), Ideal.div_coe (one_add_exp_ne (-r)), Ideal.exp_coe, one_mul,
      ← EReal.coe_mul]
    congr 2
    have e : Real.exp (-r) = (Real.exp r)⁻¹ := Real.exp_neg r
    have hp : Real.exp r ≠ 0 := (Real.exp_pos r).ne'
    rw [e]; field_simp; ring

end Cert.Proof.Silu

end
-- ==== Proof.FiniteInputs.lean ====
/-
  The precondition read at an element: every entry of the input is a real number.

  The precondition is one conjunction over the whole array (an `and`-reduction to a single truth value) of the
  comparisons |x| < +∞, the right-hand side the f32 pattern of +∞ broadcast. The reduction being 1 gives the comparison
  at each index; on the extended reals |x| = max x (-x) is below ⊤ only when x is neither ⊤ nor ⊥.
-/
import proofs.«418093_j52183852646965_3_alg».proof.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Pre_finite_inputs.Finite

open Cert.Pre_finite_inputs Idealize.ShloMosaic

variable [Cert.Pre_finite_inputs.Facts]

/-- The rank-0 shape has one index. -/
instance : Subsingleton S_.Idx := ⟨fun a b => funext fun d => d.elim0⟩

/-- The f32 pattern of +∞ denotes ⊤. -/
theorem ofBits_inf : Ideal.ofBits .f32 0x7F800000#32 = ⊤ := by simp [Ideal.ofBits, Ideal.ieee]

/-- An extended real whose absolute value max a (-a) is below ⊤ is a real number. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- Under the precondition every entry of the input is a real number. -/
theorem real_of_pre (x : FVec Ideal S4x4096x4096 .f32) (h : fn (F := Ideal) x = fun _ => 1#1) (i : S4x4096x4096.Idx) :
    ∃ r : ℝ, x i = (r : EReal) := by
  have h0 := congrFun h ValueIdx.ix0
  dsimp only [fn] at h0
  have hi := Host.reduce_andi_all _ _ _ _ _ h0 i
  -- the comparison at index i: |x i| against the broadcast pattern of +∞
  have hb : broadcastInDim S4x4096x4096 ![] Facts.bcast_S_S4x4096x4096 (constant (F := Ideal) S_ .f32 0x7F800000#32) i
      = Ideal.ofBits .f32 0x7F800000#32 :=
    broadcastInDim_apply _ Facts.bcast_S_S4x4096x4096 _ i (fun a => a.elim0) (fun a => a.elim0)
  have hc : Ideal.cmp .olt (max (x i) (-(x i)))
      (broadcastInDim S4x4096x4096 ![] Facts.bcast_S_S4x4096x4096 (constant (F := Ideal) S_ .f32 0x7F800000#32) i) = 1#1 := hi
  rw [hb, ofBits_inf] at hc
  apply real_of_abs_lt_top
  by_contra hn
  simp only [Ideal.cmp] at hc
  rw [decide_eq_false hn] at hc
  exact absurd hc (by decide)

end Cert.Pre_finite_inputs.Finite

end
-- ==== Proof.KernelBlock.lean ====
/-
  What one grid point of the kernel leaves in its output block.

  The body walks its (1, 512, 4096) block in four trips; trip k loads rows 128k … 128k+127 of the input block, applies
  ONE function of a single number to every element (`elem`: x times the quotient the kernel forms from e^(0 - |x|)),
  and stores the result over the same rows of the output block. Every store's payload at its local index is therefore
  `elem` of the input block at the index the store's rectangle places it at, so — the four row bands covering the
  block — the block ends holding `elem` of the input block, element by element, whatever it held before.
-/
import proofs.«418093_j52183852646965_3_alg».proof.Proof.Gen.KernelIdeal.Value

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- The body on one number: with z = exp (0 - |a|), a times ((1 where 0 ≤ a, z elsewhere) / (1 + z)). -/
def elem (a : Elt F .f32) : Elt F .f32 :=
  FloatOps.mulf a
    (FloatOps.divf
      (Scalar.select (FloatOps.cmpf .oge a (Scalar.ofBits .f32 0x00000000#32)) (Scalar.ofBits .f32 0x3F800000#32)
        (FloatOps.exp (FloatOps.subf (Scalar.ofBits .f32 0x00000000#32) (FloatOps.absf a))))
      (FloatOps.addf (Scalar.ofBits .f32 0x3F800000#32)
        (FloatOps.exp (FloatOps.subf (Scalar.ofBits .f32 0x00000000#32) (FloatOps.absf a)))))

/-- The stored vector of a trip is `elem` of the loaded vector, lane by lane: every operation of the body is pointwise
    and every constant a splat. -/
theorem pay_apply (v : Vec F S1x128x4096 .f32) (x : S1x128x4096.Idx) : k0_pay1 v x = elem (v x) := rfl

/-- The rows trip `k` works on, as a rectangle of the block. -/
abbrev band (k : Fin k0_t1_loop.trips) : Rect S1x512x4096 :=
  Rect.unit (s := S1x512x4096) (k0_off1 k) S1x128x4096.size (k0_off1_inb k)

/-- Trip `k` writes one piece: through its band, the payload of what it loaded through the same band. -/
theorem tripL_eq (𝒱 : Variants) (c : Dev nD) (bd : Option 𝒱.V) (i : grid0.Coords)
    (arg2 : Memref sig .tc .vmem S1x512x4096 .f32) (harg2 : arg2.IsWhole) (arg3 : Memref sig .tc .vmem S1x512x4096 .f32) (harg3 : arg3.IsWhole)
    (X : BufTy.Contents (Elt F) arg2.view.ty) (k : Fin k0_t1_loop.trips) :
    tripL_k0_t1 (F := F) 𝒱 c bd i arg2 harg2 arg3 harg3 X k
      = [⟨band k, k0_pay1 (View.readAt (Elt F) arg2.view (band k).toLoadRect X)⟩] := by
  unfold tripL_k0_t1 trip_k0_t1
  rfl

/-- Every piece of the trips before `n` holds, at each of its local indices, `elem` of the input contents at the block
    index its rectangle places that local index at. By induction on `n`: the pieces before `n + 1` are trip `n`'s one piece
    in front of the pieces before `n`. -/
theorem pb_pieces (𝒱 : Variants) (c : Dev nD) (bd : Option 𝒱.V) (i : grid0.Coords)
    (arg2 : Memref sig .tc .vmem S1x512x4096 .f32) (harg2 : arg2.IsWhole) (arg3 : Memref sig .tc .vmem S1x512x4096 .f32) (harg3 : arg3.IsWhole)
    (X : BufTy.Contents (Elt F) arg2.view.ty) :
    ∀ (n : ℕ) (p : View.Piece (Elt F) S1x512x4096 .f32), p ∈ pb_k0_t1 (F := F) 𝒱 c bd i arg2 harg2 arg3 harg3 X n →
      ∀ x : p.1.shape.Idx, p.2 x = elem (arg2.view.read (Elt F) X (p.1.emb x))
  | 0, p, hp, _ => absurd hp List.not_mem_nil
  | n + 1, p, hp, x => by
    rw [pb_k0_t1.eq_2] at hp
    unfold pb_k0_t1Step at hp
    split at hp
    · rw [tripL_eq] at hp
      rcases List.mem_append.mp hp with h1 | h2
      · obtain rfl := List.mem_singleton.mp h1
        rfl
      · exact pb_pieces 𝒱 c bd i arg2 harg2 arg3 harg3 X n p h2 x
    · exact pb_pieces 𝒱 c bd i arg2 harg2 arg3 harg3 X n p hp x

/-- WHAT THE BODY LEAVES in the output block: `elem` of the input block, element by element. The run's pieces are those of
    all four trips; each agrees with that one function of the block index, and together they cover the block. -/
theorem out_eq (c : Dev nD) (i : grid0.Coords) (arg2 : Memref sig .tc .vmem S1x512x4096 .f32) (harg2 : arg2.IsWhole)
    (arg3 : Memref sig .tc .vmem S1x512x4096 .f32) (harg3 : arg3.IsWhole) (x0 : Vec F S1x512x4096 .f32) :
    out0_A_1 c i arg2 harg2 arg3 harg3 x0 = fun y => elem (x0 y) := by
  funext y
  unfold out0_A_1
  refine View.read_writes_apply_of_pieces VO0_1 _ (fun y => elem (x0 y)) _ ?_ y (cover0_A_1 c i arg2 harg2 arg3 harg3 x0 y)
  intro p hp x
  have hp' : p ∈ pb_k0_t1 (F := F) Variants.none c none i arg2 harg2 arg3 harg3 (harg2.unread x0)
      (Scf.trips (0#32) (Scalar.addi 0#32 4#32) 1#32) := hp
  have h := pb_pieces Variants.none c none i arg2 harg2 arg3 harg3 (harg2.unread x0) _ p hp' x
  rw [harg2.read_unread] at h
  exact h

end Cert.KernelIdeal.Block

end
-- ==== Proof.KernelArray.lean ====
/-
  From the blocks to the whole output array.

  The grid is 4 × 8; point (b, r) reads block (b, r, 0) of the input — batch b, rows 512r … 512r+511, all 4096 columns —
  and writes back block (b, r, 0) of the output, the same index map on both sides. What a point writes back is `elem`
  of its input block, and the input block is the input array read through the very rectangle the output block is
  written through, so what point t writes back is block t of ONE whole-array function: `elem` of the input array, index
  by index. The 32 blocks tile the (4, 4096, 4096) array — index i lies in the block of point (i₀, i₁ / 512) —, so the
  array ends holding that function everywhere.
-/
import proofs.«418093_j52183852646965_3_alg».proof.Proof.KernelBlock

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The whole-array function: `elem` of the input, index by index. -/
abbrev whole (a : S4x4096x4096.Idx → Elt F .f32) : S4x4096x4096.Idx → Elt F .f32 := fun i => elem (a i)

/-- Input and output windows have the same block index at every grid point (decided over the 32 points). -/
theorem index_same : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 3 ∧ win0_1.index t (1 : Fin 3) ≤ 7 ∧ win0_1.index t (2 : Fin 3) = 0 :=
  (by decide +kernel : ∀ t : Fin grid0.N, _)

/-- Every block index (b, r, 0) with b < 4, r < 8 is some grid point's. -/
theorem index_onto : ∀ (b : Fin 4) (r : Fin 8), ∃ t : Fin cfg0.N, win0_1.index t = ![b.val, r.val, 0] :=
  (by decide +kernel : ∀ (b : Fin 4) (r : Fin 8), ∃ t : Fin grid0.N, win0_1.index t = ![b.val, r.val, 0])

/-- WHAT POINT `t` WRITES BACK is block `t` of `whole` of the input array as the region finds it. -/
theorem flushed_eq (c : Dev nD) (t : Fin cfg0.N) :
    (dats m 0 c).flushed 1 t = ((cfg0.win 1).blk t).view.read (Elt F) (whole (V m c main_arg0)) := by
  rw [Cert.KernelIdeal.Value.flushed1_A, out_eq]
  obtain ⟨e0, e1, e2, -, -, -⟩ := index_same t
  funext j
  show elem (V m c main_arg0 (((cfg0.win 0).blk t).view.emb j)) = elem (V m c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 512 + 1 * (j 1).val = win0_1.index t (1 : Fin 3) * 512 + 1 * (j 1).val; omega
    | ⟨2, _⟩ => show win0_0.index t (2 : Fin 3) * 4096 + 1 * (j 2).val = win0_1.index t (2 : Fin 3) * 4096 + 1 * (j 2).val; omega
  rw [h0]

/-- An index of the array is in point `t`'s output block iff each coordinate is in the block's range on its axis. -/
theorem mem_blk (t : Fin cfg0.N) (i : S4x4096x4096.Idx) :
    i ∈ ((cfg0.win 1).blk t).view.set ↔ ∀ a : Fin 3, win0_1.index t a * S1x512x4096.size a ≤ (i a).val ∧ (i a).val < win0_1.index t a * S1x512x4096.size a + S1x512x4096.size a := by
  show i ∈ ((View.whole main_v0).slice (win0_1.rect t)).set ↔ _
  rw [View.set_slice_whole, Rect.mem_set_unit]
  exact Iff.rfl

/-- The blocks tile the array: index i is in the block of the point with block index (i₀, i₁ / 512, 0). -/
theorem cover (i : S4x4096x4096.Idx) : ∃ t : Fin cfg0.N, (cfg0.win 1).flush t = true ∧ i ∈ ((cfg0.win 1).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 4096 ≤ (i 2).val ∧ (i 2).val < win0_1.index t (2 : Fin 3) * 4096 + 4096; omega

/-- THE OUTPUT ARRAY after the run: `whole` of the input array. -/
theorem final (c : Dev nD) : (dats m 0 c).arrAt 1 cfg0.N = whole (m ((c : Thread nD τ).loc main_arg0)) :=
  (dats m 0 c).arrAt_eq_of_cover 1 (whole (V m c main_arg0)) (fun t _ => flushed_eq m c t) cover

/-- The kernel's run, read: the result array is `elem` of the argument array, index by index, the argument unchanged. -/
theorem run : θ_run defs (onTc (τ := τ) (main (F := F))) ⟨m, fun _ => 0, ρ⟩ fun r => ∀ c : Dev nD,
      r.2.mem ((c : Thread nD τ).loc main_v0) = whole (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Block

end
-- ==== Proof.ReferenceValue.lean ====
/-
  The reference's result at an index.

  The reference is nine whole-array operations: negate, exponential, two splats of the constant 1, an addition, a
  quotient and a product. Each result element depends on the one input element at the same index, so the result at
  index i is  x i · (1 / (1 + e^(-(x i))))  on the extended reals, the pattern 0x3F800000 denoting 1.
-/
import proofs.«418093_j52183852646965_3_alg».proof.Proof.Gen.ReferenceIdeal.Read
import proofs.«418093_j52183852646965_3_alg».proof.Proof.SiluAlgebra
import Idealize.ShloMosaic.Lib.IdealHost

noncomputable section

namespace Cert.ReferenceIdeal.RefValue

open Cert.ReferenceIdeal Cert.ReferenceIdeal.Gen Cert.ReferenceIdeal.Read Idealize.ShloMosaic

/-- The last stage of the reference at index `i`, at the ideal instance, is x · σ(x) in the reference's spelling at the
    input's element `i`. -/
theorem result_apply (x : (⟨S4x4096x4096, .f32⟩ : BufTy).Contents (Elt Ideal)) (i : S4x4096x4096.Idx) :
    val_main_v6 (F := Ideal) x i = Cert.Proof.Silu.viaLogistic (x i) := by
  rw [val_main_v6_apply, val_main_v5_apply, val_main_v4_apply, val_main_cst_0_apply, val_main_v3_apply,
    val_main_v2_apply, val_main_cst_apply, val_main_v1_apply, val_main_v0_apply]
  simp only [Ideal.mulf_def, Ideal.hostDivf_def, Ideal.ofBits_def, Ideal.ofBits_one_f32, Ideal.addf_def,
    Ideal.hostUnary_exp_def, Ideal.hostNegf_def, Ideal.negf_def]
  rfl

end Cert.ReferenceIdeal.RefValue

end
-- ==== Proof.lean ====
/-
  x · σ(x) over f32[4, 4096, 4096]: a Pallas kernel against jnp's `x * jax.nn.sigmoid(x)`, equal on the extended reals
  for every finite input.

  The kernel tiles the array into 32 blocks of 512 rows and, in each, walks four bands of 128 rows, storing for every
  element x the product  x · (n / (1 + z))  with  z = e^(0 - |x|)  and  n = 1 where 0 ≤ x, z elsewhere: the overflow-free
  form of the logistic function. The reference computes  x · (1 / (1 + e^(-x)))  with nine whole-array operations.

  * The kernel's result array is `elem` of the argument array, index by index (Proof/KernelBlock.lean: what one grid
    point leaves in its block, the four bands' stores agreeing with one pointwise function and covering the block;
    Proof/KernelArray.lean: the 32 blocks tile the array).
  * The reference's result at an index is the reference's spelling of x · σ(x) at the input's element there
    (Proof/ReferenceValue.lean).
  * For a REAL x the two spellings agree (Proof/SiluAlgebra.lean): they are literally the same for 0 ≤ x, and for
    x < 0 the identity e^x / (1 + e^x) = 1 / (1 + e^(-x)) holds because e^x · e^(-x) = 1. The precondition makes every
    input element a real number (Proof/FiniteInputs.lean).

  The three frame claims are the generated frames (the reference's, its generated run with the result dropped); the
  ideal pass rewrote nothing, so `preserves` is `True`.
-/
import proofs.«418093_j52183852646965_3_alg».proof.Defs
import proofs.«418093_j52183852646965_3_alg».proof.Proof.Gen.Kernel
import proofs.«418093_j52183852646965_3_alg».proof.Proof.Gen.Kernel.Frame
import proofs.«418093_j52183852646965_3_alg».proof.Proof.Gen.KernelIdeal
import proofs.«418093_j52183852646965_3_alg».proof.Proof.Gen.KernelIdeal.Frame
import proofs.«418093_j52183852646965_3_alg».proof.Proof.Gen.ReferenceIdeal
import proofs.«418093_j52183852646965_3_alg».proof.Proof.Gen.ReferenceIdeal.Run
import proofs.«418093_j52183852646965_3_alg».proof.Proof.Gen.Pre_finite_inputs
import proofs.«418093_j52183852646965_3_alg».proof.Proof.SiluAlgebra
import proofs.«418093_j52183852646965_3_alg».proof.Proof.FiniteInputs
import proofs.«418093_j52183852646965_3_alg».proof.Proof.KernelArray
import proofs.«418093_j52183852646965_3_alg».proof.Proof.ReferenceValue
import Idealize.ShloMosaic.Lib.IdealHost

noncomputable section

namespace Cert.Proof

open Idealize.ShloMosaic Idealize.ShloMosaic.TcCoe Idealize.SL.Sem

/-- The kernel's function of one number, read on the extended reals, is the kernel's spelling of x · σ(x): the patterns
    0x00000000 and 0x3F800000 denote 0 and 1, |a| is max a (-a), and each float operation is its exact namesake. -/
theorem elem_ideal (a : EReal) : Cert.KernelIdeal.Block.elem (F := Ideal) a = Silu.viaStable a := by
  show a * Ideal.div
      (Scalar.select (Ideal.cmp .oge a (Ideal.ofBits .f32 0x00000000#32)) (Ideal.ofBits .f32 0x3F800000#32)
        (Ideal.exp (Ideal.ofBits .f32 0x00000000#32 - max a (-a))))
      (Ideal.ofBits .f32 0x3F800000#32 + Ideal.exp (Ideal.ofBits .f32 0x00000000#32 - max a (-a))) = _
  rw [Ideal.ofBits_zero_f32, Ideal.ofBits_one_f32]
  rfl

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no kernel: its frame is its generated run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with x · σ(x) of the (common, finite) argument array at every index: the kernel in its spelling, the
    reference in its own, and on a real number the two are one value. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Block.whole (m ((c.tc : Thread Cert.KernelIdeal.nD Cert.KernelIdeal.τ).loc Cert.KernelIdeal.main_arg0)),
    Cert.KernelIdeal.Block.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, hagree c]
  funext i
  rw [Cert.ReferenceIdeal.RefValue.result_apply]
  obtain ⟨r, hr⟩ := Cert.Pre_finite_inputs.Finite.real_of_pre _ (hpre c) i
  show Silu.viaLogistic _ = Cert.KernelIdeal.Block.elem (F := Ideal) _
  rw [elem_ideal, hr, Silu.viaStable_coe]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
